-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x2048 : Shape := ⟨3, ![8, 2048, 2048]⟩
abbrev S8 : Shape := ⟨1, ![8]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_

variable [Facts]

def fn {F : FTy → Type} [FloatOps F] (main_arg0 : FVec F S16384x2048 .f32) (main_arg1 : FVec F S8x2048x2048 .f32) (main_arg2 : IVec S8 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S16384x2048 : Shape := ⟨2, ![16384, 2048]⟩
abbrev S8x2048x2048 : Shape := ⟨3, ![8, 2048, 2048]⟩
abbrev S8 : Shape := ⟨1, ![8]⟩
abbrev S1x512x2048 : Shape := ⟨3, ![1, 512, 2048]⟩
abbrev S1x512x512 : Shape := ⟨3, ![1, 512, 512]⟩
abbrev S512x2048 : Shape := ⟨2, ![512, 2048]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S8x2048x2048, .f32⟩
  | .hbm, ⟨2, _⟩ => ⟨S8, .i32⟩
  | .hbm, ⟨3, _⟩ => ⟨S8x2048x2048, .f32⟩
  | .hbm, ⟨4, _⟩ => ⟨S8x2048x2048, .f32⟩
  | .hbm, ⟨5, _⟩ => ⟨S16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x512x512, .f32⟩
  | .local _ .vmem, ⟨5, _⟩ => ⟨S1x512x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S16384x2048_S8x2048x2048 : S16384x2048.ShapeCasts S8x2048x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S8x2048x2048_S16384x2048 : S8x2048x2048.ShapeCasts S16384x2048
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x2048x2048.size a
  hwx0_1 : ∀ i : grid0.Coords, EltTy.bits .f32 = 32 ∨ (Rect.block (s := S8x2048x2048) S1x512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x2048x2048.size a
  hwx0_2 : ∀ i : grid0.Coords, EltTy.bits .f32 = 32 ∨ (Rect.block (s := S8x2048x2048) S1x512x512.size (cc0_transform_2 i) (hinb0_2 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S8x2048x2048 : Shape := ⟨3, ![8, 2048, 2048]⟩
abbrev S8 : Shape := ⟨1, ![8]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x2048, .f32⟩
  | .hbm, ⟨2, _⟩ => ⟨S8, .i32⟩
  | .hbm, ⟨3, _⟩ => ⟨S8x2048x2048, .f32⟩
  | .hbm, ⟨4, _⟩ => ⟨S8x2048x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S16384x2048_S8x2048x2048 : S16384x2048.ShapeCasts S8x2048x2048
  shapeCasts_S8x2048x2048_S16384x2048 : S8x2048x2048.ShapeCasts S16384x2048
  dot_S8x2048x2048_S8x2048x2048_S8x2048x2048_2_2_1_1_0_0_wf : DotDims.WF S8x2048x2048 S8x2048x2048 S8x2048x2048 [2] [2] [1] [1] [0] [0]

variable [Facts₀]

def dot_S8x2048x2048_S8x2048x2048_S8x2048x2048_2_2_1_1_0_0 : DotDims S8x2048x2048 S8x2048x2048 S8x2048x2048 where
  lhsContracting := [2]
  rhsContracting := [2]
  lhsNonContracting := [1]
  rhsNonContracting := [1]
  lhsBatch := [0]
  rhsBatch := [0]
  wf := dot_S8x2048x2048_S8x2048x2048_S8x2048x2048_2_2_1_1_0_0_wf

class Facts : Prop extends Facts₀ where

variable [Facts]
-- ==== Proof.GroupedSpec.lean ====
/-
  The grouped product, as one function of two rank-3 arrays.

  Eight groups; group `g` holds a 2048 × 2048 block of token rows `y g` and a 2048 × 2048 block of
  weight rows `w g`. Entry `(g, t, o)` of the result is the inner product of token row `t` of the
  group with weight row `o` of the same group, over the 2048 shared features:

      grouped y w (g, t, o) = ∑ k, y (g, t, k) · w (g, o, k).

  Both programs compute exactly this sum on the extended reals: the kernel tile by tile (a
  512 × 512 tile of the result from a 512-row strip of each operand), the reference in one batched
  contraction. Only the grouping of the work differs, never the summand or the index set, so no
  law of the extended reals beyond the definition of a finite sum is used.
-/
import Idealize.ShloMosaic.PureOps.Ideal
import Idealize.ShloMosaic.Lib.ValueIdx

noncomputable section

namespace Cert.Grouped

open Idealize.ShloMosaic Idealize.ShloMosaic.ValueIdx

/-- Groups × rows × features (tokens and weights), and groups × token rows × weight rows (the result). -/
abbrev SG : Shape := ⟨3, ![8, 2048, 2048]⟩

/-- Entry `(g, t, o)`: token row `t` of group `g` against weight row `o` of group `g`. -/
def grouped (y w : SG.Idx → Elt Ideal .f32) : SG.Idx → Elt Ideal .f32 :=
  fun i => ∑ k : Fin 2048, y (ix3 (i 0 : Fin 8) (i 1 : Fin 2048) k) * w (ix3 (i 0 : Fin 8) (i 2 : Fin 2048) k)

/-- The same entry from any naming of the two operand indices: whatever index functions `iL`, `iR`
    agree with `(g, t, ·)` and `(g, o, ·)`, and whatever the operand values are called there. -/
theorem grouped_of (y w : SG.Idx → Elt Ideal .f32) (i : SG.Idx) (L R : Fin 2048 → Elt Ideal .f32)
    (hL : ∀ k, L k = y (ix3 (i 0 : Fin 8) (i 1 : Fin 2048) k))
    (hR : ∀ k, R k = w (ix3 (i 0 : Fin 8) (i 2 : Fin 2048) k)) :
    ∑ k : Fin 2048, L k * R k = grouped y w i := by
  unfold grouped
  exact Finset.sum_congr rfl fun k _ => by rw [hL k, hR k]

end Cert.Grouped

end
-- ==== Proof.TileProduct.lean ====
/-
  One tile of the kernel, read at an index.

  At a grid point the body holds a strip `x` of 512 token rows and a strip `w` of 512 weight rows
  (each 1 × 512 × 2048, the leading axis the squeezed group), and stores the 1 × 512 × 512 tile

      tile x w (0, p, q) = ∑ k, x (0, p, k) · w (0, q, k).

  The body's text: drop the unit axis of each strip, narrow to bf16 (the identity on extended reals),
  contract the feature axis of both into a zero accumulator, put the unit axis back. Read at
  `(0, p, q)`, every layout step moves the index and the contraction is the sum above.
-/
import proofs.«135556_j71846212928053_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The contraction's operand indices, axis by axis

The tile's contraction takes output index `(p, q)` and contraction index `k` to `(p, k)` of the
left operand and `(q, k)` of the right one. -/

theorem lhs_tile_0 (j : S512x512.Idx) (q : dot_S512x2048_S512x2048_S512x512_1_1_0_0_n_n.contr.Idx) :
    (dot_S512x2048_S512x2048_S512x512_1_1_0_0_n_n.lhsIdx j q 0).val = (j 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs_tile_1 (j : S512x512.Idx) (q : dot_S512x2048_S512x2048_S512x512_1_1_0_0_n_n.contr.Idx) :
    (dot_S512x2048_S512x2048_S512x512_1_1_0_0_n_n.lhsIdx j q 1).val = (q ⟨0, by decide⟩).val :=
  dot_S512x2048_S512x2048_S512x512_1_1_0_0_n_n.lhsIdx_val_of_single rfl j q
theorem rhs_tile_0 (j : S512x512.Idx) (q : dot_S512x2048_S512x2048_S512x512_1_1_0_0_n_n.contr.Idx) :
    (dot_S512x2048_S512x2048_S512x512_1_1_0_0_n_n.rhsIdx j q 0).val = (j 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs_tile_1 (j : S512x512.Idx) (q : dot_S512x2048_S512x2048_S512x512_1_1_0_0_n_n.contr.Idx) :
    (dot_S512x2048_S512x2048_S512x512_1_1_0_0_n_n.rhsIdx j q 1).val = (q ⟨0, by decide⟩).val :=
  dot_S512x2048_S512x2048_S512x512_1_1_0_0_n_n.rhsIdx_val_of_single rfl j q

/-! ## The contraction of two 512 × 2048 operands, at `(p, q)` -/

/-- Rows `p` of the left and `q` of the right operand, multiplied feature by feature and summed. -/
theorem contract_apply (a b : FVec Ideal S512x2048 .bf16) (p q : Fin 512) :
    matmul (F := Ideal) dot_S512x2048_S512x2048_S512x512_1_1_0_0_n_n none a b (constant S512x512 .f32 0x00000000#32) (ix2 p q)
      = ∑ k : Fin 2048, a (ix2 p k) * b (ix2 q k) := by
  show FloatOps.matmul _ _ _ _ _ _ = _
  rw [Ideal.matmul_constant_zero_apply, ← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k := funext fun a => Fin.ext (by
    match a with
    | ⟨0, _⟩ => exact lhs_tile_0 _ _
    | ⟨1, _⟩ => exact (lhs_tile_1 _ _).trans hk)
  have er : dot_S512x2048_S512x2048_S512x512_1_1_0_0_n_n.rhsIdx (ix2 p q) ((contrEquiv1 dot_S512x2048_S512x2048_S512x512_1_1_0_0_n_n 2048 rfl rfl).symm k) = ix2 q k := funext fun a => Fin.ext (by
    match a with
    | ⟨0, _⟩ => exact rhs_tile_0 _ _
    | ⟨1, _⟩ => exact (rhs_tile_1 _ _).trans hk)
  rw [el, er]

/-! ## The stored tile -/

/-- Dropping a strip's unit axis: `(p, k)` of the 512 × 2048 view is `(0, p, k)` of the strip. -/
theorem strip_apply (x : Vec Ideal S1x512x2048 .f32) (p : Fin 512) (k : Fin 2048) :
    (truncf .bf16 (shapeCast S512x2048 x shapeCasts_S1x512x2048_S512x2048) bitsLt_bf16_f32 : FVec Ideal S512x2048 .bf16) (ix2 p k)
      = x (ix3 (0 : Fin 1) p k) := by
  show shapeCast S512x2048 x shapeCasts_S1x512x2048_S512x2048 (ix2 p k) = _
  rw [shapeCast_dropUnit_apply ![512, 2048] x shapeCasts_S1x512x2048_S512x2048 (ix2 p k)]
  exact congrArg x (funext fun a => by
    match a with
    | ⟨0, _⟩ => rfl
    | ⟨1, _⟩ => rfl
    | ⟨2, _⟩ => rfl)

/-- The tile the body stores, at `(0, p, q)`: token row `p` of the strip against weight row `q`. -/
theorem tile_apply (x w : Vec Ideal S1x512x2048 .f32) (p q : Fin 512) :
    k0_pay1 (F := Ideal) x w (ix3 (0 : Fin 1) p q) = ∑ k : Fin 2048, x (ix3 (0 : Fin 1) p k) * w (ix3 (0 : Fin 1) q k) := by
  unfold k0_pay1
  rw [shapeCast_addUnit_apply ![512, 512] _ shapeCasts_S512x512_S1x512x512 (ix3 (0 : Fin 1) p q)]
  have e : (fun a : Fin 2 => (ix3 (0 : Fin 1) p q) a.succ) = ix2 p q := funext fun a => by
    match a with
    | ⟨0, _⟩ => rfl
    | ⟨1, _⟩ => rfl
  rw [e, contract_apply]
  exact Finset.sum_congr rfl fun k _ => by rw [strip_apply, strip_apply]

end Cert.KernelIdeal.Tile

end
-- ==== Proof.KernelArray.lean ====
/-
  The kernel's result array, from its tiles.

  The grid has 8 × 4 × 4 points `(g, a, b)`. At a point the pipeline stages rows `512a … 512a + 511`
  of group `g` of the regrouped tokens, rows `512b … 512b + 511` of group `g` of the weights, and
  writes back tile `(g, a, b)` of the 8 × 2048 × 2048 result. Entry `(0, p, q)` of the stored tile is
  the inner product of token row `512a + p` and weight row `512b + q` of group `g`: entry
  `(g, 512a + p, 512b + q)` of the grouped product. The 128 tiles cover the result array
  (row `r` lies in tile row `r / 512`), so after the region it IS the grouped product of the arrays
  the region found; the host lines around the region regroup the tokens before it and flatten the
  result after it.
-/
import proofs.«135556_j71846212928053_1_alg».proof.Proof.Gen.KernelIdeal.Frame
import proofs.«135556_j71846212928053_1_alg».proof.Proof.GroupedSpec
import proofs.«135556_j71846212928053_1_alg».proof.Proof.TileProduct
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

theorem offsets_zero : (![0, 0, 0] : Fin 3 → Nat) = fun _ => 0 := funext fun a => by fin_cases a <;> rfl

/-- The three index maps over the grid: the token strip sits at the tile's group and tile row, the
    weight strip at the tile's group and tile column, both at feature block 0; the tile's block
    indices stay in 8 × 4 × 4. -/
theorem tile_indices : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = win0_2.index t (2 : Fin 3)
    ∧ win0_1.index t (2 : Fin 3) = 0
    ∧ win0_2.index t (0 : Fin 3) ≤ 7 ∧ win0_2.index t (1 : Fin 3) ≤ 3 ∧ win0_2.index t (2 : Fin 3) ≤ 3 :=
  (by decide +kernel : ∀ t : Fin grid0.N, _)

/-- Every tile of the 8 × 4 × 4 box is some point's. -/
theorem tile_onto : ∀ (q0 : Fin 8) (q1 : Fin 4) (q2 : Fin 4), ∃ t : Fin cfg0.N, win0_2.index t = ![q0.val, q1.val, q2.val] :=
  (by decide +kernel : ∀ (q0 : Fin 8) (q1 : Fin 4) (q2 : Fin 4), ∃ t : Fin grid0.N, win0_2.index t = ![q0.val, q1.val, q2.val])

/-- What point `t` writes back is tile `t` of the grouped product of the arrays the region found. -/
theorem flushed_eq (c : Dev nD) (t : Fin cfg0.N) :
    (dats m 0 c).flushed 2 t = ((cfg0.win 2).blk t).view.read (Elt Ideal) (Cert.Grouped.grouped (V m c main_v0) (V m c main_arg1)) := by
  show (cfg0.win 2).cut (grid0.coords t) ((dats m 0 c).after 2 t) = _
  rw [after0_2]
  unfold out0_2
  rw [View.canon_unit_zero offsets_zero]
  simp only [View.ld_unit_zero (S := S1x512x2048) offsets_zero]
  obtain ⟨e0, e1, e2, e3, e4, e5, b0, b1, b2⟩ := tile_indices t
  funext j
  have hj0 : (j 0).val = 0 := by have h : (j 0).val < 1 := (j 0).isLt; omega
  have hj1 : (j 1).val < 512 := (j 1).isLt
  have hj2 : (j 2).val < 512 := (j 2).isLt
  have ej : (cfg0.win 2).xinj (grid0.coords t) j = ix3 (0 : Fin 1) (⟨(j 1).val, hj1⟩ : Fin 512) (⟨(j 2).val, hj2⟩ : Fin 512) :=
    funext fun a => Fin.ext (by
      match a with
      | ⟨0, _⟩ => exact hj0
      | ⟨1, _⟩ => rfl
      | ⟨2, _⟩ => rfl)
  show k0_pay1 (F := Ideal) (iblk m c 0 t) (iblk m c 1 t) ((cfg0.win 2).xinj (grid0.coords t) j)
    = Cert.Grouped.grouped (V m c main_v0) (V m c main_arg1) (((cfg0.win 2).blk t).view.emb j)
  refine (congrArg (k0_pay1 (F := Ideal) (iblk m c 0 t) (iblk m c 1 t)) ej).trans ?_
  refine (Tile.tile_apply (iblk m c 0 t) (iblk m c 1 t) ⟨(j 1).val, hj1⟩ ⟨(j 2).val, hj2⟩).trans ?_
  refine Cert.Grouped.grouped_of (V m c main_v0) (V m c main_arg1) (((cfg0.win 2).blk t).view.emb j)
    (fun k => iblk m c 0 t (ix3 (0 : Fin 1) (⟨(j 1).val, hj1⟩ : Fin 512) k))
    (fun k => iblk m c 1 t (ix3 (0 : Fin 1) (⟨(j 2).val, hj2⟩ : Fin 512) k)) (fun k => ?_) (fun k => ?_)
  · show V m c main_v0 (((cfg0.win 0).blk t).view.emb (ix3 (0 : Fin 1) (⟨(j 1).val, hj1⟩ : Fin 512) k)) = _
    refine congrArg (V m c main_v0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 512 + 1 * (j 1).val = win0_2.index t (1 : Fin 3) * 512 + 1 * (j 1).val; omega
    | ⟨2, _⟩ => show win0_0.index t (2 : Fin 3) * 2048 + 1 * k.val = k.val; omega
  · show V m c main_arg1 (((cfg0.win 1).blk t).view.emb (ix3 (0 : Fin 1) (⟨(j 2).val, hj2⟩ : Fin 512) k)) = _
    refine congrArg (V m c main_arg1) (funext fun a => Fin.ext ?_)
    match a with
    | ⟨0, _⟩ => show win0_1.index t (0 : Fin 3) * 1 + 1 * 0 = win0_2.index t (0 : Fin 3) * 1 + 1 * (j 0).val; omega
    | ⟨1, _⟩ => show win0_1.index t (1 : Fin 3) * 512 + 1 * (j 2).val = win0_2.index t (2 : Fin 3) * 512 + 1 * (j 2).val; omega
    | ⟨2, _⟩ => show win0_1.index t (2 : Fin 3) * 2048 + 1 * k.val = k.val; omega

/-- An index of the result array is in point `t`'s tile iff each coordinate is in the tile's range. -/
theorem mem_tile (t : Fin cfg0.N) (i : S8x2048x2048.Idx) :
    i ∈ ((cfg0.win 2).blk t).view.set ↔ ∀ a : Fin 3, win0_2.index t a * S1x512x512.size a ≤ (i a).val ∧ (i a).val < win0_2.index t a * S1x512x512.size a + S1x512x512.size a := by
  show i ∈ ((View.whole main_v1).slice (win0_2.rect t)).set ↔ _
  rw [View.set_slice_whole, Rect.mem_set_unit]
  exact Iff.rfl

/-- The tiles cover the result array: `(g, r, s)` lies in tile `(g, r / 512, s / 512)`. -/
theorem covered (i : S8x2048x2048.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 2048 := (i 2).isLt
  obtain ⟨t, ht⟩ := tile_onto ⟨(i 0).val, hi0⟩ ⟨(i 1).val / 512, by omega⟩ ⟨(i 2).val / 512, by omega⟩
  have q0 : win0_2.index t (0 : Fin 3) = (i 0).val := congrFun ht 0
  have q1 : win0_2.index t (1 : Fin 3) = (i 1).val / 512 := congrFun ht 1
  have q2 : win0_2.index t (2 : Fin 3) = (i 2).val / 512 := congrFun ht 2
  refine ⟨t, flush0_2 t, ?_⟩
  rw [mem_tile]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 512 ≤ (i 2).val ∧ (i 2).val < win0_2.index t (2 : Fin 3) * 512 + 512; omega

/-- The result array after the region: the grouped product of the arrays the region found. -/
theorem final (c : Dev nD) :
    (dats m 0 c).arrAt 2 cfg0.N = Cert.Grouped.grouped (V m c main_v0) (V m c main_arg1) :=
  (dats m 0 c).arrAt_eq_of_cover 2 _ (fun t _ => flushed_eq m c t) covered

end Cert.KernelIdeal.Whole

end
-- ==== Proof.KernelRun.lean ====
/-
  The kernel's run, read: the result of @main as one function of the arguments.

  Before the region the host regroups the 16384 × 2048 tokens into 8 × 2048 × 2048 (same row-major
  order); after it the host flattens the 8 × 2048 × 2048 result array back to 16384 × 2048. The region
  leaves the grouped product of the regrouped tokens and the weights in the result array, so @main
  ends with the flattened grouped product of the regrouped tokens and the weights.
-/
import proofs.«135556_j71846212928053_1_alg».proof.Proof.KernelArray

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The region finds the regrouped tokens in its first operand's array. -/
theorem V_tokens (c : Dev nD) :
    (V m c main_v0 : S8x2048x2048.Idx → Elt Ideal .f32)
      = shapeCast S8x2048x2048 (m ((c : Thread nD τ).loc main_arg0)) shapeCasts_S16384x2048_S8x2048x2048 := by
  show StableHlo.after hostOps0 (fun b => m (c, b)) (Proc.devRef .tc main_v0) = _
  after_results
  rfl

/-- The host line after the region flattens the result array. -/
theorem tail_result (c : Dev nD) :
    (Pipeline.afterTail₀ cfgs (dats m) 0 (V0 m) [hostOps1] c main_v2 : S16384x2048.Idx → Elt Ideal .f32)
      = shapeCast S16384x2048 (Cert.Grouped.grouped (V m c main_v0) (V m c main_arg1)) shapeCasts_S8x2048x2048_S16384x2048 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = Cert.Grouped.grouped (V m c main_v0) (V m c main_arg1) :=
    (Pipeline.withArrays_arr spec0 launch0.win.arr_inj c _ _ 2).trans (final m c)
  exact congrArg (fun z => shapeCast S16384x2048 z shapeCasts_S8x2048x2048_S16384x2048) hw

/-- The flattened grouped product of the regrouped tokens and the weights: what both programs end with. -/
abbrev result (x : S16384x2048.Idx → Elt Ideal .f32) (w : S8x2048x2048.Idx → Elt Ideal .f32) : S16384x2048.Idx → Elt Ideal .f32 :=
  shapeCast S16384x2048 (Cert.Grouped.grouped (shapeCast S8x2048x2048 x shapeCasts_S16384x2048_S8x2048x2048) w) shapeCasts_S8x2048x2048_S16384x2048

/-- Every weakly fair execution of the kernel's @main terminates with its result at the flattened grouped
    product of the regrouped tokens and the weights, and its arguments unchanged. -/
theorem run : θ_run defs (onTc (τ := τ) (main (F := Ideal))) ⟨m, fun _ => 0, ρ⟩ fun r => ∀ c : Dev nD,
      r.2.mem ((c.tc : Thread nD τ).loc main_v2) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans
        ((tail_result m c).trans (by rw [V_tokens, V_main_arg1])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.ReferenceProduct.lean ====
/-
  The reference's batched contraction is the grouped product.

  The reference regroups the 16384 token rows into 8 groups of 2048, contracts the feature axis of
  tokens and weights with the group axis as a batch axis, and flattens the groups again. Read at
  `(g, t, o)` the contraction is `∑ k, y (g, t, k) · w (g, o, k)`, the grouped product of the
  regrouped tokens and the weights, whatever the regrouped tokens are.
-/
import proofs.«135556_j71846212928053_1_alg».proof.Proof.Gen.ReferenceIdeal.Read
import proofs.«135556_j71846212928053_1_alg».proof.Proof.GroupedSpec

noncomputable section

namespace Cert.ReferenceIdeal.RefValue

open Cert.ReferenceIdeal Cert.ReferenceIdeal.Gen Cert.ReferenceIdeal.Read Idealize.ShloMosaic Idealize.ShloMosaic.ValueIdx

/-- The contraction stage, index by index, is the grouped product of the regrouped tokens and the weights. -/
theorem contraction_eq (x0 : (⟨S16384x2048, .f32⟩ : BufTy).Contents (Elt Ideal)) (x1 : (⟨S8x2048x2048, .f32⟩ : BufTy).Contents (Elt Ideal)) :
    val_main_v1 (F := Ideal) x0 x1 = Cert.Grouped.grouped (val_main_v0 (F := Ideal) x0) x1 := by
  funext i
  rw [val_main_v1_apply]
  exact Cert.Grouped.grouped_of (val_main_v0 (F := Ideal) x0) x1 i
    (fun k => val_main_v0 (F := Ideal) x0 (lidx_main_v1 i k)) (fun k => x1 (ridx_main_v1 i k))
    (fun k => congrArg (val_main_v0 (F := Ideal) x0) (funext fun a => by
      match a with
      | ⟨0, _⟩ => rfl
      | ⟨1, _⟩ => rfl
      | ⟨2, _⟩ => rfl))
    (fun k => congrArg x1 (funext fun a => by
      match a with
      | ⟨0, _⟩ => rfl
      | ⟨1, _⟩ => rfl
      | ⟨2, _⟩ => rfl))

/-- The reference's result: the flattened grouped product of the regrouped tokens and the weights. -/
theorem result_eq (x0 : (⟨S16384x2048, .f32⟩ : BufTy).Contents (Elt Ideal)) (x1 : (⟨S8x2048x2048, .f32⟩ : BufTy).Contents (Elt Ideal)) :
    val_main_v2 (F := Ideal) x0 x1
      = shapeCast S16384x2048 (Cert.Grouped.grouped (val_main_v0 (F := Ideal) x0) x1) shapeCasts_S8x2048x2048_S16384x2048 := by
  unfold val_main_v2
  rw [contraction_eq]

end Cert.ReferenceIdeal.RefValue

end
-- ==== Proof.lean ====
/-
  A balanced grouped matrix product against its batched-contraction reference, over the extended reals.

  Inputs: 16384 token rows of 2048 features, laid out as 8 consecutive groups of 2048 rows; 8 weight
  matrices of 2048 rows by 2048 features; a vector of group sizes neither program reads. Both
  programs regroup the tokens to 8 × 2048 × 2048, form for every group `g`, token row `t` and weight row `o`

      out (g, t, o) = ∑ k, tokens (g, t, k) · weight (g, o, k),

  and flatten the groups again. The kernel forms it tile by tile on an 8 × 4 × 4 grid (a 512 × 512 tile
  from a strip of 512 token rows and a strip of 512 weight rows, narrowed to bf16 — the identity on
  extended reals — and contracted into a zero accumulator); the reference in one contraction with the
  group axis as batch axis. Summand and index set are the same on both sides, so the results agree for
  every input: finiteness of the inputs is not used.

  `GroupedSpec` states the sum; `TileProduct` reads one stored tile at an index; `KernelArray` places
  the tiles in the result array and shows they cover it; `KernelRun` adds the host lines around the
  region; `ReferenceProduct` reads the reference's contraction as the same sum. The three frames are
  the kernel frames as generated and the reference's run with its result dropped; the idealization
  rewrote nothing, so `preserves` is `True`.
-/
import proofs.«135556_j71846212928053_1_alg».proof.Defs
import proofs.«135556_j71846212928053_1_alg».proof.Proof.Gen.Kernel
import proofs.«135556_j71846212928053_1_alg».proof.Proof.Gen.Kernel.Skeleton
import proofs.«135556_j71846212928053_1_alg».proof.Proof.Gen.Kernel.Launch
import proofs.«135556_j71846212928053_1_alg».proof.Proof.Gen.Kernel.Points
import proofs.«135556_j71846212928053_1_alg».proof.Proof.Gen.Kernel.Frame
import proofs.«135556_j71846212928053_1_alg».proof.Proof.Gen.KernelIdeal
import proofs.«135556_j71846212928053_1_alg».proof.Proof.Gen.KernelIdeal.Skeleton
import proofs.«135556_j71846212928053_1_alg».proof.Proof.Gen.KernelIdeal.Launch
import proofs.«135556_j71846212928053_1_alg».proof.Proof.Gen.KernelIdeal.Points
import proofs.«135556_j71846212928053_1_alg».proof.Proof.Gen.KernelIdeal.Frame
import proofs.«135556_j71846212928053_1_alg».proof.Proof.Gen.ReferenceIdeal
import proofs.«135556_j71846212928053_1_alg».proof.Proof.Gen.Pre_finite_inputs
import proofs.«135556_j71846212928053_1_alg».proof.Proof.Gen.ReferenceIdeal.Run
import proofs.«135556_j71846212928053_1_alg».proof.Proof.Gen.ReferenceIdeal.Read
import proofs.«135556_j71846212928053_1_alg».proof.Proof.KernelRun
import proofs.«135556_j71846212928053_1_alg».proof.Proof.ReferenceProduct
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is three host lines; its run, with the result forgotten, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments both programs end with the flattened grouped product of
    the regrouped tokens and the weights: the kernel by its tiles, the reference by its contraction read
    index by index. -/
theorem algebraic : Cert.algebraic_KernelIdeal_ReferenceIdeal := by
  intro m ρ m' ρ' _ hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact (Cert.ReferenceIdeal.Read.val_main_v2_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
